-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x3200000 : Shape := ⟨2, ![2, 3200000]⟩
abbrev S3200000 : Shape := ⟨1, ![3200000]⟩
abbrev S30x30 : Shape := ⟨2, ![30, 30]⟩
abbrev S30 : Shape := ⟨1, ![30]⟩
abbrev S30x10 : Shape := ⟨2, ![30, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S30x30 : S_.BroadcastsInDim S30x30 (![] : Fin 0 → Fin S30x30.rank)
  reducesTo_S30x30_S_d0_1 : S30x30.ReducesTo [0, 1] S_
  bcast_S_S30 : S_.BroadcastsInDim S30 (![] : Fin 0 → Fin S30.rank)
  reducesTo_S30_S_d0 : S30.ReducesTo [0] S_
  bcast_S_S30x10 : S_.BroadcastsInDim S30x10 (![] : Fin 0 → Fin S30x10.rank)
  reducesTo_S30x10_S_d0_1 : S30x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S10x1 .f32) (main_v50 : FVec F S10x1 .f32) : IVec S_ 1 :=
  let main_v51 : IVec S10x1 1 := cmpf .olt main_v49 main_v50
  let main_c_19 : IVec S_ 1 := constantI S_ 1 1#1
  let main_v52 : IVec S_ 1 := (fun x v => Host.reduce IntOp.andi x v reducesTo_S10x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S10 .f32) (main_arg9 : FVec F S10x10 .f32) (main_arg10 : FVec F S10 .f32) (main_arg11 : FVec F S10x1 .f32) (main_arg12 : FVec F S1 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg9
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x1 .f32 := Host.absf main_arg11
  let main_cst_18 : FVec F S_ .f32 := constant S_ .f32 0x7F800000#32
  let main_v50 : FVec F S10x1 .f32 := broadcastInDim S10x1 ![] bcast_S_S10x1 main_cst_18
  fn_part3 (F := F) main_arg12 main_v48 main_v49 main_v50

def fn_part1 {F : FTy → Type} [FloatOps F] (main_arg5 : FVec F S30x10 .f32) (main_arg6 : FVec F S10 .f32) (main_arg7 : FVec F S10x10 .f32) (main_arg8 : FVec F S10 .f32) (main_arg9 : FVec F S10x10 .f32) (main_arg10 : FVec F S10 .f32) (main_arg11 : FVec F S10x1 .f32) (main_arg12 : FVec F S1 .f32) (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  let main_v19 : FVec F S30x10 .f32 := Host.absf main_arg5
  let main_cst_6 : FVec F S_ .f32 := constant S_ .f32 0x7F800000#32
  let main_v20 : FVec F S30x10 .f32 := broadcastInDim S30x10 ![] bcast_S_S30x10 main_cst_6
  let main_v21 : IVec S30x10 1 := cmpf .olt main_v19 main_v20
  let main_c_7 : IVec S_ 1 := constantI S_ 1 1#1
  let main_v22 : IVec S_ 1 := (fun x v => Host.reduce IntOp.andi x v reducesTo_S30x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg7
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x30 .f32) (main_arg1 : IVec S2x3200000 32) (main_arg2 : FVec F S3200000 .f32) (main_arg3 : FVec F S30x30 .f32) (main_arg4 : FVec F S30 .f32) (main_arg5 : FVec F S30x10 .f32) (main_arg6 : FVec F S10 .f32) (main_arg7 : FVec F S10x10 .f32) (main_arg8 : FVec F S10 .f32) (main_arg9 : FVec F S10x10 .f32) (main_arg10 : FVec F S10 .f32) (main_arg11 : FVec F S10x1 .f32) (main_arg12 : FVec F S1 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S30x30 .f32 := Host.absf main_arg3
  let main_cst_2 : FVec F S_ .f32 := constant S_ .f32 0x7F800000#32
  let main_v10 : FVec F S30x30 .f32 := broadcastInDim S30x30 ![] bcast_S_S30x30 main_cst_2
  let main_v11 : IVec S30x30 1 := cmpf .olt main_v9 main_v10
  let main_c_3 : IVec S_ 1 := constantI S_ 1 1#1
  let main_v12 : IVec S_ 1 := (fun x v => Host.reduce IntOp.andi x v reducesTo_S30x30_S_d0_1 h_S_) main_v11 main_c_3
  let main_v13 : IVec S_ 1 := andi main_v8 main_v12
  let main_v14 : FVec F S30 .f32 := Host.absf main_arg4
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_arg5 main_arg6 main_arg7 main_arg8 main_arg9 main_arg10 main_arg11 main_arg12 main_v13 main_v16
-- ==== Kernel.lean ====
abbrev S100000x30 : Shape := ⟨2, ![100000, 30]⟩
abbrev S2x3200000 : Shape := ⟨2, ![2, 3200000]⟩
abbrev S3200000 : Shape := ⟨1, ![3200000]⟩
abbrev S30x30 : Shape := ⟨2, ![30, 30]⟩
abbrev S30 : Shape := ⟨1, ![30]⟩
abbrev S30x10 : Shape := ⟨2, ![30, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S5000x30 : Shape := ⟨2, ![5000, 30]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S1x10 : Shape := ⟨2, ![1, 10]⟩
abbrev S1x1 : Shape := ⟨2, ![1, 1]⟩
abbrev S100000x1 : Shape := ⟨2, ![100000, 1]⟩
abbrev S5000x1 : Shape := ⟨2, ![5000, 1]⟩
abbrev S5000x10 : Shape := ⟨2, ![5000, 10]⟩

abbrev nBuf : Space → Nat
  | .hbm => 79
  | .vmem => 18
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S3200000, .f32⟩
  | .hbm, ⟨3, _⟩ => ⟨S30x30, .f32⟩
  | .hbm, ⟨4, _⟩ => ⟨S30, .f32⟩
  | .hbm, ⟨5, _⟩ => ⟨S30x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x1, .f32⟩
  | .hbm, ⟨12, _⟩ => ⟨S1, .f32⟩
  | .hbm, ⟨13, _⟩ => ⟨S100000x30, .f32⟩
  | .hbm, ⟨14, _⟩ => ⟨S100000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S1x3200000, .i32⟩
  | .hbm, ⟨19, _⟩ => ⟨S3200000, .i32⟩
  | .hbm, ⟨20, _⟩ => ⟨S3300000, .i32⟩
  | .hbm, ⟨21, _⟩ => ⟨S_, .f32⟩
  | .hbm, ⟨22, _⟩ => ⟨S100000, .f32⟩
  | .hbm, ⟨23, _⟩ => ⟨S3300000, .f32⟩
  | .hbm, ⟨24, _⟩ => ⟨S_, .f32⟩
  | .hbm, ⟨25, _⟩ => ⟨S100000, .f32⟩
  | .hbm, ⟨26, _⟩ => ⟨S3300000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x30, .f32⟩
  | .hbm, ⟨65, _⟩ => ⟨S3300000x1, .f32⟩
  | .hbm, ⟨66, _⟩ => ⟨S3300000x30, .f32⟩
  | .hbm, ⟨67, _⟩ => ⟨S3300000x30, .f32⟩
  | .hbm, ⟨68, _⟩ => ⟨S_, .f32⟩
  | .hbm, ⟨69, _⟩ => ⟨S100000x30, .f32⟩
  | .hbm, ⟨70, _⟩ => ⟨S3300000x1, .i32⟩
  | .hbm, ⟨71, _⟩ => ⟨S100000x30, .f32⟩
  | .hbm, ⟨72, _⟩ => ⟨S1x30, .f32⟩
  | .hbm, ⟨73, _⟩ => ⟨S1x10, .f32⟩
  | .hbm, ⟨74, _⟩ => ⟨S1x10, .f32⟩
  | .hbm, ⟨75, _⟩ => ⟨S1x10, .f32⟩
  | .hbm, ⟨76, _⟩ => ⟨S1x1, .f32⟩
  | .hbm, ⟨77, _⟩ => ⟨S100000x1, .f32⟩
  | .hbm, ⟨78, _⟩ => ⟨S100000, .f32⟩
  | .local _ .vmem, ⟨0, _⟩ => ⟨S5000x30, .f32⟩
  | .local _ .vmem, ⟨1, _⟩ => ⟨S5000x30, .f32⟩
  | .local _ .vmem, ⟨2, _⟩ => ⟨S30x30, .f32⟩
  | .local _ .vmem, ⟨3, _⟩ => ⟨S5000x30, .f32⟩
  | .local _ .vmem, ⟨4, _⟩ => ⟨S5000x30, .f32⟩
  | .local _ .vmem, ⟨5, _⟩ => ⟨S5000x30, .f32⟩
  | .local _ .vmem, ⟨6, _⟩ => ⟨S5000x30, .f32⟩
  | .local _ .vmem, ⟨7, _⟩ => ⟨S1x30, .f32⟩
  | .local _ .vmem, ⟨8, _⟩ => ⟨S30x10, .f32⟩
  | .local _ .vmem, ⟨9, _⟩ => ⟨S1x10, .f32⟩
  | .local _ .vmem, ⟨10, _⟩ => ⟨S10x10, .f32⟩
  | .local _ .vmem, ⟨11, _⟩ => ⟨S1x10, .f32⟩
  | .local _ .vmem, ⟨12, _⟩ => ⟨S10x10, .f32⟩
  | .local _ .vmem, ⟨13, _⟩ => ⟨S1x10, .f32⟩
  | .local _ .vmem, ⟨14, _⟩ => ⟨S10x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem10_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S30x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S10x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  inb_S5000x30_S5000x30_0_0 : ∀ a, (![0, 0] : Fin 2 → Nat) a + S5000x30.size a ≤ S5000x30.size a
  h_S5000x30 : 0 < S5000x30.numel
  bitsLt_bf16_f32 : FTy.bits .bf16 < FTy.bits .f32
  inb_S30x30_S30x30_0_0 : ∀ a, (![0, 0] : Fin 2 → Nat) a + S30x30.size a ≤ S30x30.size a
  h_S30x30 : 0 < S30x30.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  shapeCasts_S30_S1x30 : S30.ShapeCasts S1x30
  shapeCasts_S10_S1x10 : S10.ShapeCasts S1x10
  shapeCasts_S1_S1x1 : S1.ShapeCasts S1x1
  shapeCasts_S5000x30_S5000x30 : S5000x30.ShapeCasts S5000x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S5000x30 : S1x30.Broadcasts S5000x30
  inb_S30x10_S30x10_0_0 : ∀ a, (![0, 0] : Fin 2 → Nat) a + S30x10.size a ≤ S30x10.size a
  h_S30x10 : 0 < S30x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S10x10_S10x10_0_0 : ∀ a, (![0, 0] : Fin 2 → Nat) a + S10x10.size a ≤ S10x10.size a
  h_S10x10 : 0 < S10x10.numel
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  dot_S5000x30_S30x30_S5000x30_1_0_0_1_n_n_wf : DotDims.WF S5000x30 S30x30 S5000x30 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S5000x30_S30x10_S5000x10_1_0_0_1_n_n_wf : DotDims.WF S5000x30 S30x10 S5000x10 [1] [0] [0] [1] [] []
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S100000x30.size a
  hwx0_0 : ∀ i : grid0.Coords, EltTy.bits .f32 = 32 ∨ (Rect.block (s := S100000x30) S5000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x30.size a ≤ S30x30.size a
  hwx0_1 : ∀ i : grid0.Coords, EltTy.bits .f32 = 32 ∨ (Rect.block (s := S30x30) S30x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x30.size a ≤ S100000x30.size a
  hwx0_2 : ∀ i : grid0.Coords, EltTy.bits .f32 = 32 ∨ (Rect.block (s := S100000x30) S5000x30.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x30.size a ≤ S100000x30.size a
  hwx1_0 : ∀ i : grid1.Coords, EltTy.bits .f32 = 32 ∨ (Rect.block (s := S100000x30) S5000x30.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x30.size a ≤ S1x30.size a
  hwx1_1 : ∀ i : grid1.Coords, EltTy.bits .f32 = 32 ∨ (Rect.block (s := S1x30) S1x30.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S30x10.size a ≤ S30x10.size a
  hwx1_2 : ∀ i : grid1.Coords, EltTy.bits .f32 = 32 ∨ (Rect.block (s := S30x10) S30x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10x10.size a ≤ S10x10.size a
  hwx1_4 : ∀ i : grid1.Coords, EltTy.bits .f32 = 32 ∨ (Rect.block (s := S10x10) S10x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10x10.size a ≤ S10x10.size a
  hwx1_6 : ∀ i : grid1.Coords, EltTy.bits .f32 = 32 ∨ (Rect.block (s := S10x10) S10x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S10x1.size a ≤ S10x1.size a
  hwx1_8 : ∀ i : grid1.Coords, EltTy.bits .f32 = 32 ∨ (Rect.block (s := S10x1) S10x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)

variable [Facts₀]

def dot_S5000x30_S30x30_S5000x30_1_0_0_1_n_n : DotDims S5000x30 S30x30 S5000x30 where
  lhsContracting := [1]
  rhsContracting := [0]
  lhsNonContracting := [0]
  rhsNonContracting := [1]
  lhsBatch := []
  rhsBatch := []
  wf := dot_S5000x30_S30x30_S5000x30_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S5000x30_S30x10_S5000x10_1_0_0_1_n_n : DotDims S5000x30 S30x10 S5000x10 where
  lhsContracting := [1]
  rhsContracting := [0]
  lhsNonContracting := [0]
  rhsNonContracting := [1]
  lhsBatch := []
  rhsBatch := []
  wf := dot_S5000x30_S30x10_S5000x10_1_0_0_1_n_n_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

abbrev win0_0 : Pipeline.Window sig grid0 :=
  Pipeline.Window.ofSpec (Memref.whole main_arg0) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S30x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S30x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S10x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S10x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S10x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v50) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v51) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x30 : Shape := ⟨2, ![100000, 30]⟩
abbrev S2x3200000 : Shape := ⟨2, ![2, 3200000]⟩
abbrev S3200000 : Shape := ⟨1, ![3200000]⟩
abbrev S30x30 : Shape := ⟨2, ![30, 30]⟩
abbrev S30 : Shape := ⟨1, ![30]⟩
abbrev S30x10 : Shape := ⟨2, ![30, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S100000x10 : Shape := ⟨2, ![100000, 10]⟩
abbrev S1x10 : Shape := ⟨2, ![1, 10]⟩
abbrev S100000x1 : Shape := ⟨2, ![100000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S3200000, .f32⟩
  | .hbm, ⟨3, _⟩ => ⟨S30x30, .f32⟩
  | .hbm, ⟨4, _⟩ => ⟨S30, .f32⟩
  | .hbm, ⟨5, _⟩ => ⟨S30x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x1, .f32⟩
  | .hbm, ⟨12, _⟩ => ⟨S1, .f32⟩
  | .hbm, ⟨13, _⟩ => ⟨S100000x30, .f32⟩
  | .hbm, ⟨14, _⟩ => ⟨S100000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S1x3200000, .i32⟩
  | .hbm, ⟨19, _⟩ => ⟨S3200000, .i32⟩
  | .hbm, ⟨20, _⟩ => ⟨S3300000, .i32⟩
  | .hbm, ⟨21, _⟩ => ⟨S_, .f32⟩
  | .hbm, ⟨22, _⟩ => ⟨S100000, .f32⟩
  | .hbm, ⟨23, _⟩ => ⟨S3300000, .f32⟩
  | .hbm, ⟨24, _⟩ => ⟨S_, .f32⟩
  | .hbm, ⟨25, _⟩ => ⟨S100000, .f32⟩
  | .hbm, ⟨26, _⟩ => ⟨S3300000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x30, .f32⟩
  | .hbm, ⟨65, _⟩ => ⟨S3300000x1, .f32⟩
  | .hbm, ⟨66, _⟩ => ⟨S3300000x30, .f32⟩
  | .hbm, ⟨67, _⟩ => ⟨S3300000x30, .f32⟩
  | .hbm, ⟨68, _⟩ => ⟨S_, .f32⟩
  | .hbm, ⟨69, _⟩ => ⟨S100000x30, .f32⟩
  | .hbm, ⟨70, _⟩ => ⟨S3300000x1, .i32⟩
  | .hbm, ⟨71, _⟩ => ⟨S100000x30, .f32⟩
  | .hbm, ⟨72, _⟩ => ⟨S1x30, .f32⟩
  | .hbm, ⟨73, _⟩ => ⟨S100000x30, .f32⟩
  | .hbm, ⟨74, _⟩ => ⟨S100000x30, .f32⟩
  | .hbm, ⟨75, _⟩ => ⟨S_, .f32⟩
  | .hbm, ⟨76, _⟩ => ⟨S100000x30, .f32⟩
  | .hbm, ⟨77, _⟩ => ⟨S100000x30, .f32⟩
  | .hbm, ⟨78, _⟩ => ⟨S100000x10, .f32⟩
  | .hbm, ⟨79, _⟩ => ⟨S1x10, .f32⟩
  | .hbm, ⟨80, _⟩ => ⟨S100000x10, .f32⟩
  | .hbm, ⟨81, _⟩ => ⟨S100000x10, .f32⟩
  | .hbm, ⟨82, _⟩ => ⟨S_, .f32⟩
  | .hbm, ⟨83, _⟩ => ⟨S100000x10, .f32⟩
  | .hbm, ⟨84, _⟩ => ⟨S100000x10, .f32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S_, .f32⟩
  | .hbm, ⟨90, _⟩ => ⟨S100000x10, .f32⟩
  | .hbm, ⟨91, _⟩ => ⟨S100000x10, .f32⟩
  | .hbm, ⟨92, _⟩ => ⟨S100000x10, .f32⟩
  | .hbm, ⟨93, _⟩ => ⟨S1x10, .f32⟩
  | .hbm, ⟨94, _⟩ => ⟨S100000x10, .f32⟩
  | .hbm, ⟨95, _⟩ => ⟨S100000x10, .f32⟩
  | .hbm, ⟨96, _⟩ => ⟨S_, .f32⟩
  | .hbm, ⟨97, _⟩ => ⟨S100000x10, .f32⟩
  | .hbm, ⟨98, _⟩ => ⟨S100000x10, .f32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | .hbm, ⟨103, _⟩ => ⟨S100000x1, .f32⟩
  | .hbm, ⟨104, _⟩ => ⟨S100000x1, .f32⟩
  | .hbm, ⟨105, _⟩ => ⟨S_, .f32⟩
  | .hbm, ⟨106, _⟩ => ⟨S100000x1, .f32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call4_cst : Ref sig .tc := ⟨.hbm, 96, rfl⟩
abbrev main_call4_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_cst_10 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x30_S30x30_S100000x30_1_0_0_1_n_n_wf : DotDims.WF S100000x30 S30x30 S100000x30 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S100000x30_S30x10_S100000x10_1_0_0_1_n_n_wf : DotDims.WF S100000x30 S30x10 S100000x10 [1] [0] [0] [1] [] []
  dot_S100000x10_S10x10_S100000x10_1_0_0_1_n_n_wf : DotDims.WF S100000x10 S10x10 S100000x10 [1] [0] [0] [1] [] []
  dot_S100000x10_S10x1_S100000x1_1_0_0_1_n_n_wf : DotDims.WF S100000x10 S10x1 S100000x1 [1] [0] [0] [1] [] []

variable [Facts₀]

def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S100000x30_S30x10_S100000x10_1_0_0_1_n_n : DotDims S100000x30 S30x10 S100000x10 where
  lhsContracting := [1]
  rhsContracting := [0]
  lhsNonContracting := [0]
  rhsNonContracting := [1]
  lhsBatch := []
  rhsBatch := []
  wf := dot_S100000x30_S30x10_S100000x10_1_0_0_1_n_n_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def dot_S100000x10_S10x1_S100000x1_1_0_0_1_n_n : DotDims S100000x10 S10x1 S100000x1 where
  lhsContracting := [1]
  rhsContracting := [0]
  lhsNonContracting := [0]
  rhsNonContracting := [1]
  lhsBatch := []
  rhsBatch := []
  wf := dot_S100000x10_S10x1_S100000x1_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«153734_j62629213110804_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«153734_j62629213110804_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Region0Value.lean ====
/-
  Region 0 of the kernel's program: the linear transform `x = h · W`, a block of 5000 rows per grid point.

  At point `t` the body multiplies rows `5000 t … 5000 t + 4999` of `h` by the whole of `W` into a zero accumulator and
  writes the product back as the same rows of the result. Entry `(p, q)` of the block is the row product of row
  `5000 t + p` of `h` with column `q` of `W`; the twenty blocks tile the 100000 rows, so the array after the region is
  `h · W` entry by entry (`final0`), whatever the contents the region was entered with elsewhere.
-/
import proofs.«153734_j62629213110804_1_alg».proof.Proof.Gen.KernelIdeal.Frame
import proofs.«153734_j62629213110804_1_alg».proof.Proof.LibPlainDot
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.DenseLayer

variable (V : (c : Dev nD) → (b : Ref sig .tc) → Buf (Elt Ideal) ((c : Thread nD τ).loc b))

theorem hz : (![0, 0] : Fin 2 → Nat) = fun _ => 0 := funext fun a => by fin_cases a <;> rfl

/-- The body's contraction sums the second axis of the rows against the first axis of `W`. -/
theorem dot_plain : PlainDot dot_S5000x30_S30x30_S5000x30_1_0_0_1_n_n := plainDot_of_axes _ rfl rfl rfl rfl rfl rfl

/-- The features and the weights as the region finds them. -/
abbrev hArr (c : Dev nD) : Mat 100000 30 := V c main_arg0
abbrev wArr (c : Dev nD) : Mat 30 30 := V c main_arg3

/-- `h · W`, entry by entry. -/
def xArr (c : Dev nD) : Mat 100000 30 := fun i => prodRow (hArr V c) (wArr V c) (i 0) (i 1)

/-- The body's stored value at `(p, q)`: the row product of the loaded rows with the loaded weights (the change of
    float format before the product is the identity at the ideal values). -/
theorem pay_apply (x0 : Vec Ideal S5000x30 .f32) (x1 : Vec Ideal S30x30 .f32) (p : Fin 5000) (q : Fin 30) :
    k0_pay1 x0 x1 (ix2 p q) = prodRow (a := 5000) (K := 30) (N := 30) x0 x1 p q := by
  unfold k0_pay1
  exact matmul_zero_apply dot_plain none _ _ (ix2 p q)

/-- The printed index maps over the grid: the row blocks move with the point, `W`'s block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows' block at point `t` is rows `5000 t …` of `h`. -/
theorem rows_apply (c : Dev nD) (t : Fin cfg0.N) (p : Fin 5000) (k : Fin 30) (r : Fin 100000)
    (hr : r.val = 5000 * t.val + p.val) :
    (iblk0 V c 0 t : Vec Ideal S5000x30 .f32) (ix2 p k) = hArr V c (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 30 + 1 * k.val = k.val; rw [e1]; omega

/-- The weights' block at every point is the whole of `W`. -/
theorem weights_apply (c : Dev nD) (t : Fin cfg0.N) (k : Fin 30) (q : Fin 30) :
    (iblk0 V c 1 t : Vec Ideal S30x30 .f32) (ix2 k q) = wArr V c (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 30 + 1 * k.val = k.val; rw [e2]; omega
  | ⟨1, _⟩ => show win0_1.index t 1 * 30 + 1 * q.val = q.val; rw [e3]; omega

/-- What point `t` writes back is block `t` of `h · W`. -/
theorem flushed_eq (c : Dev nD) (t : Fin cfg0.N) :
    (dat0 V c).flushed 2 t = ((cfg0.win 2).blk t).view.read (Elt Ideal) (xArr V c) := by
  show (cfg0.win 2).cut (grid0.coords t) ((dat0 V c).after 2 t) = _
  rw [after0_2]
  unfold out0_2
  rw [View.canon_unit_zero hz]
  simp only [View.ld_unit_zero (S := S5000x30) hz, View.ld_unit_zero (S := S30x30) hz]
  obtain ⟨-, -, -, -, e4, e5⟩ := idx_facts t
  funext j
  obtain ⟨p, q, rfl⟩ : ∃ (p : Fin 5000) (q : Fin 30), j = ix2 p q := ⟨j 0, j 1, eq_ix2 j⟩
  have hlt : 5000 * t.val + p.val < 100000 := by
    have ht : t.val < 20 := lt_of_lt_of_eq t.isLt N_0
    have hp := p.isLt; omega
  have hemb : ((cfg0.win 2).blk t).view.emb (ix2 p q) = ix2 (⟨5000 * t.val + p.val, hlt⟩ : Fin 100000) q := by
    funext a
    apply Fin.ext
    match a with
    | ⟨0, _⟩ => show win0_2.index t 0 * 5000 + 1 * p.val = 5000 * t.val + p.val; rw [e4]; omega
    | ⟨1, _⟩ => show win0_2.index t 1 * 30 + 1 * q.val = q.val; rw [e5]; omega
  show k0_pay1 (iblk0 V c 0 t) (iblk0 V c 1 t) (ix2 p q) = xArr V c (((cfg0.win 2).blk t).view.emb (ix2 p q))
  rw [hemb, pay_apply]
  show prodRow _ _ p q = prodRow (hArr V c) (wArr V c) ⟨5000 * t.val + p.val, hlt⟩ q
  unfold prodRow
  refine Finset.sum_congr rfl fun k _ => ?_
  rw [rows_apply V c t p k ⟨5000 * t.val + p.val, hlt⟩ rfl, weights_apply V c t k q]

/-- An index of the result is in point `t`'s block iff its row is one of the block's 5000. -/
theorem mem_blk (t : Fin cfg0.N) (i : S100000x30.Idx) :
    i ∈ ((cfg0.win 2).blk t).view.set ↔ ∀ a : Fin 2, win0_2.index t a * S5000x30.size a ≤ (i a).val ∧ (i a).val < win0_2.index t a * S5000x30.size a + S5000x30.size a := by
  show i ∈ ((View.whole main_v0).slice (win0_2.rect t)).set ↔ _
  rw [View.set_slice_whole, Rect.mem_set_unit]
  exact Iff.rfl

/-- Every index of the result is in the block of the point its row falls under. -/
theorem cover (i : S100000x30.Idx) :
    ∃ t : Fin cfg0.N, (cfg0.win 2).flush t = true ∧ i ∈ ((cfg0.win 2).blk t).view.set := by
  have hi0 : (i 0).val < 100000 := (i 0).isLt
  have hi1 : (i 1).val < 30 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 30 ≤ (i 1).val ∧ (i 1).val < win0_2.index _ (1 : Fin 2) * 30 + 30
    rw [e5]; omega

/-- The result array after the region is `h · W`. -/
theorem final0 (c : Dev nD) : (dat0 V c).arrAt 2 cfg0.N = xArr V c :=
  (dat0 V c).arrAt_eq_of_cover 2 (xArr V c) (fun t _ => flushed_eq V c t) cover

end Cert.KernelIdeal.Region0

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«153734_j62629213110804_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibMlpHead.lean ====
/-
  The head of a small network, row by row: a bias and a clamp, three clamped dense layers, a dense layer and the
  logistic, as plain functions of matrices of extended reals, generic in the extents.

  `biasRelu x b` adds the bias `b q` to every entry `(r, q)` of `x` and clamps the sum at zero from below.
  `head` feeds that through three dense layers each clamped at zero (`reluAffine`), one dense layer more
  (`affine`) into a single column, and the logistic `1 / (1 + e^(-z))`. Entry `(r, 0)` of `head` depends on `x`
  only through row `r` (`head_congr`): a block of rows gives the same values as the whole matrix.

  Then the way a vector program spells these when it holds each bias as a `[1, N]` block (`rowOf` reads the
  block's one row): the block cast to its own shape and broadcast over the rows reads `rowOf b q` at `(r, q)`; the
  bias-and-clamp, the dense layer into a zero accumulator plus the laid-out bias, and that layer clamped, each as a
  whole-array equality at the ideal values.

  And the way a host program spells them: each bias `[N]` laid over the rows by two `broadcast_in_dim`s, the zero a
  splat of a scalar constant, the product a `dot_general`, and the logistic written out as `1 / (1 + exp (-z))` over
  splats of the word of one.
-/
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«153734_j62629213110804_1_alg».proof.Proof.LibBiasLayer

noncomputable section

namespace Cert.MlpHead

open Idealize.ShloMosaic Idealize.ShloMosaic.ValueIdx Cert.DenseLayer Cert.BiasLayer

variable {a d0 d1 d2 d3 : ℕ}

/-! ## The functions -/

/-- The one row of a `[1, n]` matrix, as a vector. -/
def rowOf {n : ℕ} (v : Mat 1 n) : Row n := fun j => v (ix2 (0 : Fin 1) (j 0))

theorem rowOf_apply {n : ℕ} (v : Mat 1 n) (q : Fin n) : rowOf v (ix1 q) = v (ix2 (0 : Fin 1) q) := rfl

/-- A vector `[n]` reshaped to the one-row matrix `[1, n]` reads back, through its row, as the vector. -/
theorem rowOf_shapeCast {n : ℕ} (v : Row n) (h : (⟨1, ![n]⟩ : Shape).ShapeCasts ⟨2, ![1, n]⟩) :
    rowOf (shapeCast ⟨2, ![1, n]⟩ v h) = v :=
  funext fun j => by
    obtain ⟨q, rfl⟩ : ∃ q : Fin n, j = ix1 q := ⟨j 0, eq_ix1 j⟩
    exact shapeCast_n_1n_apply v h 0 q

/-- `x + b` clamped at zero from below, entry by entry: at `(r, q)` it is `max (x (r, q) + b q) 0`. -/
def biasRelu (x : Mat a d0) (b : Row d0) : Mat a d0 :=
  fun i => max (x i + b (ix1 (i 1))) (Ideal.ofBits .f32 0x00000000#32)

theorem biasRelu_apply (x : Mat a d0) (b : Row d0) (r : Fin a) (q : Fin d0) :
    biasRelu x b (ix2 r q) = max (x (ix2 r q) + b (ix1 q)) (Ideal.ofBits .f32 0x00000000#32) := rfl

/-- The head: bias and clamp, three clamped dense layers, one dense layer into a single column, the logistic. -/
def head (x : Mat a d0) (cb : Row d0) (w1 : Mat d0 d1) (b1 : Row d1) (w2 : Mat d1 d2) (b2 : Row d2)
    (w3 : Mat d2 d3) (b3 : Row d3) (w4 : Mat d3 1) (b4 : Row 1) : Mat a 1 :=
  fun i => Ideal.logistic
    (affine (reluAffine (reluAffine (reluAffine (biasRelu x cb) w1 b1) w2 b2) w3 b3) w4 b4 i)

/-- An entry of the bias-and-clamp depends on the matrix only through that entry. -/
theorem biasRelu_congr {a' : ℕ} (x : Mat a d0) (x' : Mat a' d0) (b : Row d0) (r : Fin a) (r' : Fin a')
    (h : ∀ k, x (ix2 r k) = x' (ix2 r' k)) (q : Fin d0) : biasRelu x b (ix2 r q) = biasRelu x' b (ix2 r' q) := by
  rw [biasRelu_apply, biasRelu_apply, h q]

/-- An entry of the head depends on the matrix only through the entry's row: two matrices, of any heights, that
    agree along a row of each give the same value there. -/
theorem head_congr {a' : ℕ} (x : Mat a d0) (x' : Mat a' d0) (cb : Row d0) (w1 : Mat d0 d1) (b1 : Row d1)
    (w2 : Mat d1 d2) (b2 : Row d2) (w3 : Mat d2 d3) (b3 : Row d3) (w4 : Mat d3 1) (b4 : Row 1)
    (r : Fin a) (r' : Fin a') (h : ∀ k, x (ix2 r k) = x' (ix2 r' k)) (q : Fin 1) :
    head x cb w1 b1 w2 b2 w3 b3 w4 b4 (ix2 r q) = head x' cb w1 b1 w2 b2 w3 b3 w4 b4 (ix2 r' q) :=
  congrArg Ideal.logistic
    (affine_congr _ _ w4 b4 r r' (fun k3 =>
      reluAffine_congr _ _ w3 b3 r r' (fun k2 =>
        reluAffine_congr _ _ w2 b2 r r' (fun k1 =>
          reluAffine_congr _ _ w1 b1 r r' (fun k0 => biasRelu_congr x x' cb r r' h k0) k1) k2) k3) q)

/-! ## A vector program's spelling, its biases held as `[1, N]` blocks -/

section Vector

variable {K N : ℕ} {α : Type}

/-- A `[1, N]` block cast to its own shape and broadcast over `a` rows reads, at `(r, q)`, the block's row at `q`. -/
theorem block_over_rows_apply (b : (⟨2, ![1, N]⟩ : Shape).Idx → α)
    (hc : (⟨2, ![1, N]⟩ : Shape).ShapeCasts ⟨2, ![1, N]⟩) (hb : (⟨2, ![1, N]⟩ : Shape).Broadcasts ⟨2, ![a, N]⟩)
    (r : Fin a) (q : Fin N) :
    broadcastTo ⟨2, ![a, N]⟩ (shapeCast ⟨2, ![1, N]⟩ b hc) hb (ix2 r q) = b (ix2 (0 : Fin 1) q) := by
  rw [shapeCast_self]
  exact broadcastTo_1b_ab_apply b hb r q

/-- The bias-and-clamp of a vector program: the matrix cast to its own shape, plus the laid-out bias block, against a
    splat of the zero word. -/
theorem vector_biasRelu (x : FVec Ideal ⟨2, ![a, N]⟩ .f32) (b : FVec Ideal ⟨2, ![1, N]⟩ .f32)
    (hx : (⟨2, ![a, N]⟩ : Shape).ShapeCasts ⟨2, ![a, N]⟩) (hc : (⟨2, ![1, N]⟩ : Shape).ShapeCasts ⟨2, ![1, N]⟩)
    (hb : (⟨2, ![1, N]⟩ : Shape).Broadcasts ⟨2, ![a, N]⟩) :
    maximumf (addf (shapeCast ⟨2, ![a, N]⟩ x hx) (broadcastTo ⟨2, ![a, N]⟩ (shapeCast ⟨2, ![1, N]⟩ b hc) hb))
        (broadcast ⟨2, ![a, N]⟩ (Scalar.ofBits (F := Ideal) .f32 0x00000000#32))
      = biasRelu x (rowOf b) := by
  funext i
  obtain ⟨r, q, rfl⟩ : ∃ (r : Fin a) (q : Fin N), i = ix2 r q := ⟨i 0, i 1, eq_ix2 i⟩
  show max (shapeCast ⟨2, ![a, N]⟩ x hx (ix2 r q)
      + broadcastTo ⟨2, ![a, N]⟩ (shapeCast ⟨2, ![1, N]⟩ b hc) hb (ix2 r q)) (Ideal.ofBits .f32 0x00000000#32) = _
  rw [shapeCast_self, block_over_rows_apply]
  rfl

variable {φ₁ φ₂ : FTy} {d : DotDims ⟨2, ![a, K]⟩ ⟨2, ![K, N]⟩ ⟨2, ![a, N]⟩}

/-- A vector program's product into the zero accumulator plus the laid-out bias block is `affine`. -/
theorem vector_affine_block (hd : PlainDot d) (prec : Option ContractPrecision) (x : FVec Ideal ⟨2, ![a, K]⟩ φ₁)
    (w : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![a, N]⟩) :
    addf (matmul d prec x w (constant ⟨2, ![a, N]⟩ .f32 0x00000000#32))
        (broadcastTo ⟨2, ![a, N]⟩ (shapeCast ⟨2, ![1, N]⟩ b hc) hb)
      = affine x w (rowOf b) := by
  funext i
  obtain ⟨r, q, rfl⟩ : ∃ (r : Fin a) (q : Fin N), i = ix2 r q := ⟨i 0, i 1, eq_ix2 i⟩
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, block_over_rows_apply]
  rfl

/-- Followed by the maximum against a splat of the zero word it is `reluAffine`. -/
theorem vector_reluAffine_block (hd : PlainDot d) (prec : Option ContractPrecision) (x : FVec Ideal ⟨2, ![a, K]⟩ φ₁)
    (w : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![a, N]⟩) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32))
      = reluAffine x w (rowOf b) :=
  funext fun i => congrArg (fun z : EReal => max z (Ideal.ofBits .f32 0x00000000#32))
    (congrFun (vector_affine_block hd prec x w b hc hb) i)

end Vector

/-! ## A host program's spelling -/

section Host

variable {K N : ℕ}

/-- The bias-and-clamp of a host program: the matrix plus the bias laid over the rows, against a splat of the zero
    word. -/
theorem host_biasRelu (x : FVec Ideal ⟨2, ![a, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) :
    maximumf (addf x (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32))
      = biasRelu x b := by
  funext i
  obtain ⟨r, q, rfl⟩ : ∃ (r : Fin a) (q : Fin N), i = ix2 r q := ⟨i 0, i 1, eq_ix2 i⟩
  show max (x (ix2 r q) + broadcastInDim ⟨2, ![a, N]⟩ ![0, 1] h2 (broadcastInDim ⟨2, ![1, N]⟩ ![1] h1 b) (ix2 r q))
      (broadcastInDim ⟨2, ![a, N]⟩ ![] h0 (constant (F := Ideal) ⟨0, ![]⟩ .f32 0x00000000#32) (ix2 r q)) = _
  rw [host_row_over_rows_apply, host_splat_apply]
  rfl

variable {φ₁ φ₂ : FTy} {d : DotDims ⟨2, ![a, K]⟩ ⟨2, ![K, N]⟩ ⟨2, ![a, N]⟩}

/-- A host program's `dot_general` plus the laid-out bias is `affine`, as whole arrays. -/
theorem host_affine_eq (hd : PlainDot d) (prec : Option ContractPrecision) (x : FVec Ideal ⟨2, ![a, K]⟩ φ₁)
    (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![a, N]⟩ ![0, 1]) :
    addf (Host.dotGeneral d prec x w)
        (broadcastInDim ⟨2, ![a, N]⟩ ![0, 1] h2 (broadcastInDim ⟨2, ![1, N]⟩ ![1] h1 b))
      = affine x w b := by
  funext i
  obtain ⟨r, q, rfl⟩ : ∃ (r : Fin a) (q : Fin N), i = ix2 r q := ⟨i 0, i 1, eq_ix2 i⟩
  exact host_affine_apply x w b hd prec h1 h2 r q

/-- Followed by the maximum against a host splat of the zero word it is `reluAffine`, as whole arrays. -/
theorem host_reluAffine_eq (hd : PlainDot d) (prec : Option ContractPrecision) (x : FVec Ideal ⟨2, ![a, K]⟩ φ₁)
    (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32))
      = reluAffine x w b := by
  funext i
  obtain ⟨r, q, rfl⟩ : ∃ (r : Fin a) (q : Fin N), i = ix2 r q := ⟨i 0, i 1, eq_ix2 i⟩
  exact host_reluAffine_apply x w b hd prec h1 h2 h0 r q

/-- The logistic as a host program writes it out, `1 / (1 + exp (-z))` over splats of the word of one, is the
    logistic entry by entry. -/
theorem host_logistic {s : Shape} (z : FVec Ideal s .f32) (h0 h0' : (⟨0, ![]⟩ : Shape).BroadcastsInDim s ![]) :
    Host.divf (broadcastInDim s ![] h0 (constant (F := Ideal) ⟨0, ![]⟩ .f32 0x3F800000#32))
        (addf (broadcastInDim s ![] h0' (constant (F := Ideal) ⟨0, ![]⟩ .f32 0x3F800000#32)) (Host.exp (Host.negf z)))
      = fun i => Ideal.logistic (z i) := by
  funext i
  show Ideal.div (broadcastInDim s ![] h0 (constant (F := Ideal) ⟨0, ![]⟩ .f32 0x3F800000#32) i)
      (broadcastInDim s ![] h0' (constant (F := Ideal) ⟨0, ![]⟩ .f32 0x3F800000#32) i + Ideal.exp (-(z i))) = _
  rw [host_splat_apply]
  show Ideal.div (Ideal.ofBits .f32 0x3F800000#32) (Ideal.ofBits .f32 0x3F800000#32 + Ideal.exp (-(z i))) = _
  rw [Ideal.ofBits_one_f32]
  rfl

end Host

end Cert.MlpHead

end
-- ==== Proof.Region1Value.lean ====
/-
  Region 1 of the kernel's program: the fused head, a block of 5000 rows per grid point.

  At point `t` the body adds the convolution's bias to rows `5000 t … 5000 t + 4999` of the aggregated features,
  clamps at zero, runs three clamped dense layers and a last dense layer into one column, and applies the logistic;
  every weight matrix and every bias (each bias held as a `[1, N]` array) is read whole at every point. Entry
  `(p, 0)` of the block depends only on row `5000 t + p` of the aggregate, so the twenty blocks written back tile the
  result with the head of the whole aggregate, entry by entry (`final1`).
-/
import proofs.«153734_j62629213110804_1_alg».proof.Proof.Gen.KernelIdeal.Frame
import proofs.«153734_j62629213110804_1_alg».proof.Proof.LibPlainDot
import proofs.«153734_j62629213110804_1_alg».proof.Proof.LibMlpHead
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.DenseLayer Cert.BiasLayer Cert.MlpHead

variable (V : (c : Dev nD) → (b : Ref sig .tc) → Buf (Elt Ideal) ((c : Thread nD τ).loc b))

theorem hz : (![0, 0] : Fin 2 → Nat) = fun _ => 0 := funext fun a => by fin_cases a <;> rfl

/-- Each of the body's contractions sums the second axis of its left operand against the first of its right. -/
theorem dot1_plain : PlainDot dot_S5000x30_S30x10_S5000x10_1_0_0_1_n_n := plainDot_of_axes _ rfl rfl rfl rfl rfl rfl
theorem dot2_plain : PlainDot dot_S5000x10_S10x10_S5000x10_1_0_0_1_n_n := plainDot_of_axes _ rfl rfl rfl rfl rfl rfl
theorem dot3_plain : PlainDot dot_S5000x10_S10x1_S5000x1_1_0_0_1_n_n := plainDot_of_axes _ rfl rfl rfl rfl rfl rfl

/-- The body's stored value is the head of its loaded blocks: bias and clamp, three clamped dense layers, a dense
    layer and the logistic (each change of float format before a product is the identity at the ideal values). -/
theorem pay_eq (x0 : Vec Ideal S5000x30 .f32) (x1 : Vec Ideal S1x30 .f32) (x2 : Vec Ideal S30x10 .f32)
    (x3 : Vec Ideal S1x10 .f32) (x4 : Vec Ideal S10x10 .f32) (x5 : Vec Ideal S1x10 .f32) (x6 : Vec Ideal S10x10 .f32)
    (x7 : Vec Ideal S1x10 .f32) (x8 : Vec Ideal S10x1 .f32) (x9 : Vec Ideal S1x1 .f32) :
    k1_pay1 (k1_pay2 x0 x1 x2 x3 x4 x5 x6 x7) (Scalar.ofBits .f32 0x00000000#32) x8 x9
      = head (a := 5000) (d0 := 30) (d1 := 10) (d2 := 10) (d3 := 10) x0 (rowOf x1) x2 (rowOf x3) x4 (rowOf x5) x6 (rowOf x7) x8 (rowOf x9) := by
  unfold k1_pay1 k1_pay2
  dsimp only
  rw [vector_biasRelu (a := 5000) (N := 30) x0 x1]
  rw [vector_reluAffine_block (a := 5000) (K := 30) (N := 10) dot1_plain none _ _ x3]
  rw [vector_reluAffine_block (a := 5000) (K := 10) (N := 10) dot2_plain none _ _ x5]
  rw [vector_reluAffine_block (a := 5000) (K := 10) (N := 10) dot2_plain none _ _ x7]
  rw [vector_affine_block (a := 5000) (K := 10) (N := 1) dot3_plain none _ _ x9]
  rfl

/-- The aggregate, the weights and the biases as the region finds them; each bias is held as a `[1, N]` array. -/
abbrev aggArr (c : Dev nD) : Mat 100000 30 := V c main_v45
abbrev cbArr (c : Dev nD) : Mat 1 30 := V c main_v46
abbrev w1Arr (c : Dev nD) : Mat 30 10 := V c main_arg5
abbrev b1Arr (c : Dev nD) : Mat 1 10 := V c main_v47
abbrev w2Arr (c : Dev nD) : Mat 10 10 := V c main_arg7
abbrev b2Arr (c : Dev nD) : Mat 1 10 := V c main_v48
abbrev w3Arr (c : Dev nD) : Mat 10 10 := V c main_arg9
abbrev b3Arr (c : Dev nD) : Mat 1 10 := V c main_v49
abbrev w4Arr (c : Dev nD) : Mat 10 1 := V c main_arg11
abbrev b4Arr (c : Dev nD) : Mat 1 1 := V c main_v50

/-- The head of the whole aggregate, entry by entry. -/
def outArr (c : Dev nD) : Mat 100000 1 :=
  head (aggArr V c) (rowOf (cbArr V c)) (w1Arr V c) (rowOf (b1Arr V c)) (w2Arr V c) (rowOf (b2Arr V c))
    (w3Arr V c) (rowOf (b3Arr V c)) (w4Arr V c) (rowOf (b4Arr V c))

/-- The printed index maps over the grid: the aggregate's and the result's row blocks move with the point. -/
theorem idx_rows : ∀ t : Fin cfg1.N, win1_0.index t (0 : Fin 2) = t.val ∧ win1_0.index t (1 : Fin 2) = 0
    ∧ win1_10.index t (0 : Fin 2) = t.val ∧ win1_10.index t (1 : Fin 2) = 0 :=
  (by decide +kernel : ∀ t : Fin grid1.N, _)

/-- Every weight's and every bias's block stays at the origin. -/
theorem idx_fixed : ∀ t : Fin cfg1.N, (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_7.index t a = 0) ∧ (∀ a : Fin 2, win1_8.index t a = 0)
    ∧ (∀ a : Fin 2, win1_9.index t a = 0) :=
  (by decide +kernel : ∀ t : Fin grid1.N, _)

/-- The aggregate's block at point `t` is rows `5000 t …` of the aggregate. -/
theorem rows_apply (c : Dev nD) (t : Fin cfg1.N) (p : Fin 5000) (k : Fin 30) (r : Fin 100000)
    (hr : r.val = 5000 * t.val + p.val) :
    (iblk1 V c 0 t : Vec Ideal S5000x30 .f32) (ix2 p k) = aggArr V c (ix2 r k) := by
  obtain ⟨e0, e1, -⟩ := idx_rows t
  unfold iblk1
  rw [View.read_apply]
  show V c main_v45 _ = V c main_v45 _
  congr 1
  funext a
  apply Fin.ext
  match a with
  | ⟨0, _⟩ => show win1_0.index t 0 * 5000 + 1 * p.val = r.val; rw [e0, hr]; omega
  | ⟨1, _⟩ => show win1_0.index t 1 * 30 + 1 * k.val = k.val; rw [e1]; omega

/-- Each of the other nine blocks is its whole array, at every point. -/
theorem blk_cb (c : Dev nD) (t : Fin cfg1.N) : (iblk1 V c 1 t : Vec Ideal S1x30 .f32) = cbArr V c := by
  have e := (idx_fixed t).1
  funext y; unfold iblk1; rw [View.read_apply]; show V c main_v46 _ = V c main_v46 _; congr 1; funext a; apply Fin.ext
  match a with
  | ⟨0, _⟩ => show win1_1.index t 0 * 1 + 1 * (y 0).val = (y 0).val; rw [e 0]; omega
  | ⟨1, _⟩ => show win1_1.index t 1 * 30 + 1 * (y 1).val = (y 1).val; rw [e 1]; omega
theorem blk_w1 (c : Dev nD) (t : Fin cfg1.N) : (iblk1 V c 2 t : Vec Ideal S30x10 .f32) = w1Arr V c := by
  have e := (idx_fixed t).2.1
  funext y; unfold iblk1; rw [View.read_apply]; show V c main_arg5 _ = V c main_arg5 _; congr 1; funext a; apply Fin.ext
  match a with
  | ⟨0, _⟩ => show win1_2.index t 0 * 30 + 1 * (y 0).val = (y 0).val; rw [e 0]; omega
  | ⟨1, _⟩ => show win1_2.index t 1 * 10 + 1 * (y 1).val = (y 1).val; rw [e 1]; omega
theorem blk_b1 (c : Dev nD) (t : Fin cfg1.N) : (iblk1 V c 3 t : Vec Ideal S1x10 .f32) = b1Arr V c := by
  have e := (idx_fixed t).2.2.1
  funext y; unfold iblk1; rw [View.read_apply]; show V c main_v47 _ = V c main_v47 _; congr 1; funext a; apply Fin.ext
  match a with
  | ⟨0, _⟩ => show win1_3.index t 0 * 1 + 1 * (y 0).val = (y 0).val; rw [e 0]; omega
  | ⟨1, _⟩ => show win1_3.index t 1 * 10 + 1 * (y 1).val = (y 1).val; rw [e 1]; omega
theorem blk_w2 (c : Dev nD) (t : Fin cfg1.N) : (iblk1 V c 4 t : Vec Ideal S10x10 .f32) = w2Arr V c := by
  have e := (idx_fixed t).2.2.2.1
  funext y; unfold iblk1; rw [View.read_apply]; show V c main_arg7 _ = V c main_arg7 _; congr 1; funext a; apply Fin.ext
  match a with
  | ⟨0, _⟩ => show win1_4.index t 0 * 10 + 1 * (y 0).val = (y 0).val; rw [e 0]; omega
  | ⟨1, _⟩ => show win1_4.index t 1 * 10 + 1 * (y 1).val = (y 1).val; rw [e 1]; omega
theorem blk_b2 (c : Dev nD) (t : Fin cfg1.N) : (iblk1 V c 5 t : Vec Ideal S1x10 .f32) = b2Arr V c := by
  have e := (idx_fixed t).2.2.2.2.1
  funext y; unfold iblk1; rw [View.read_apply]; show V c main_v48 _ = V c main_v48 _; congr 1; funext a; apply Fin.ext
  match a with
  | ⟨0, _⟩ => show win1_5.index t 0 * 1 + 1 * (y 0).val = (y 0).val; rw [e 0]; omega
  | ⟨1, _⟩ => show win1_5.index t 1 * 10 + 1 * (y 1).val = (y 1).val; rw [e 1]; omega
theorem blk_w3 (c : Dev nD) (t : Fin cfg1.N) : (iblk1 V c 6 t : Vec Ideal S10x10 .f32) = w3Arr V c := by
  have e := (idx_fixed t).2.2.2.2.2.1
  funext y; unfold iblk1; rw [View.read_apply]; show V c main_arg9 _ = V c main_arg9 _; congr 1; funext a; apply Fin.ext
  match a with
  | ⟨0, _⟩ => show win1_6.index t 0 * 10 + 1 * (y 0).val = (y 0).val; rw [e 0]; omega
  | ⟨1, _⟩ => show win1_6.index t 1 * 10 + 1 * (y 1).val = (y 1).val; rw [e 1]; omega
theorem blk_b3 (c : Dev nD) (t : Fin cfg1.N) : (iblk1 V c 7 t : Vec Ideal S1x10 .f32) = b3Arr V c := by
  have e := (idx_fixed t).2.2.2.2.2.2.1
  funext y; unfold iblk1; rw [View.read_apply]; show V c main_v49 _ = V c main_v49 _; congr 1; funext a; apply Fin.ext
  match a with
  | ⟨0, _⟩ => show win1_7.index t 0 * 1 + 1 * (y 0).val = (y 0).val; rw [e 0]; omega
  | ⟨1, _⟩ => show win1_7.index t 1 * 10 + 1 * (y 1).val = (y 1).val; rw [e 1]; omega
theorem blk_w4 (c : Dev nD) (t : Fin cfg1.N) : (iblk1 V c 8 t : Vec Ideal S10x1 .f32) = w4Arr V c := by
  have e := (idx_fixed t).2.2.2.2.2.2.2.1
  funext y; unfold iblk1; rw [View.read_apply]; show V c main_arg11 _ = V c main_arg11 _; congr 1; funext a; apply Fin.ext
  match a with
  | ⟨0, _⟩ => show win1_8.index t 0 * 10 + 1 * (y 0).val = (y 0).val; rw [e 0]; omega
  | ⟨1, _⟩ => show win1_8.index t 1 * 1 + 1 * (y 1).val = (y 1).val; rw [e 1]; omega
theorem blk_b4 (c : Dev nD) (t : Fin cfg1.N) : (iblk1 V c 9 t : Vec Ideal S1x1 .f32) = b4Arr V c := by
  have e := (idx_fixed t).2.2.2.2.2.2.2.2
  funext y; unfold iblk1; rw [View.read_apply]; show V c main_v50 _ = V c main_v50 _; congr 1; funext a; apply Fin.ext
  match a with
  | ⟨0, _⟩ => show win1_9.index t 0 * 1 + 1 * (y 0).val = (y 0).val; rw [e 0]; omega
  | ⟨1, _⟩ => show win1_9.index t 1 * 1 + 1 * (y 1).val = (y 1).val; rw [e 1]; omega

/-- What point `t` writes back is block `t` of the head of the whole aggregate: the head of a row block is the head of
    the whole matrix along those rows. -/
theorem flushed_eq (c : Dev nD) (t : Fin cfg1.N) :
    (dat1 V c).flushed 10 t = ((cfg1.win 10).blk t).view.read (Elt Ideal) (outArr V c) := by
  show (cfg1.win 10).cut (grid1.coords t) ((dat1 V c).after 10 t) = _
  rw [after1_10]
  unfold out1_10
  rw [View.canon_unit_zero hz]
  simp only [View.ld_unit_zero (S := S5000x30) hz, View.ld_unit_zero (S := S1x30) hz, View.ld_unit_zero (S := S30x10) hz,
    View.ld_unit_zero (S := S1x10) hz, View.ld_unit_zero (S := S10x10) hz, View.ld_unit_zero (S := S10x1) hz,
    View.ld_unit_zero (S := S1x1) hz]
  obtain ⟨-, -, e2, e3⟩ := idx_rows t
  funext j
  obtain ⟨p, u, rfl⟩ : ∃ (p : Fin 5000) (u : Fin 1), j = ix2 p u := ⟨j 0, j 1, eq_ix2 j⟩
  have hlt : 5000 * t.val + p.val < 100000 := by
    have ht : t.val < 20 := lt_of_lt_of_eq t.isLt N_1
    have hp := p.isLt; omega
  have hemb : ((cfg1.win 10).blk t).view.emb (ix2 p u) = ix2 (⟨5000 * t.val + p.val, hlt⟩ : Fin 100000) u := by
    funext a
    apply Fin.ext
    match a with
    | ⟨0, _⟩ => show win1_10.index t 0 * 5000 + 1 * p.val = 5000 * t.val + p.val; rw [e2]; omega
    | ⟨1, _⟩ => show win1_10.index t 1 * 1 + 1 * u.val = u.val; rw [e3]; omega
  show k1_pay1 (k1_pay2 (iblk1 V c 0 t) (iblk1 V c 1 t) (iblk1 V c 2 t) (iblk1 V c 3 t) (iblk1 V c 4 t) (iblk1 V c 5 t)
      (iblk1 V c 6 t) (iblk1 V c 7 t)) (Scalar.ofBits .f32 0x00000000#32) (iblk1 V c 8 t) (iblk1 V c 9 t) (ix2 p u)
    = outArr V c (((cfg1.win 10).blk t).view.emb (ix2 p u))
  rw [hemb, pay_eq, blk_cb, blk_w1, blk_b1, blk_w2, blk_b2, blk_w3, blk_b3, blk_w4, blk_b4]
  exact head_congr _ (aggArr V c) _ _ _ _ _ _ _ _ _ p ⟨5000 * t.val + p.val, hlt⟩
    (fun k => rows_apply V c t p k ⟨5000 * t.val + p.val, hlt⟩ rfl) u

/-- An index of the result is in point `t`'s block iff its row is one of the block's 5000. -/
theorem mem_blk (t : Fin cfg1.N) (i : S100000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v51).slice (win1_10.rect t)).set ↔ _
  rw [View.set_slice_whole, Rect.mem_set_unit]
  exact Iff.rfl

/-- Every index of the result is in the block of the point its row falls under. -/
theorem cover (i : S100000x1.Idx) :
    ∃ t : Fin cfg1.N, (cfg1.win 10).flush t = true ∧ i ∈ ((cfg1.win 10).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_10 _, ?_⟩
  rw [mem_blk]
  obtain ⟨-, -, e2, e3⟩ := idx_rows ⟨(i 0).val / 5000, by rw [hN]; omega⟩
  intro a
  match a with
  | ⟨0, _⟩ =>
    show win1_10.index _ (0 : Fin 2) * 5000 ≤ (i 0).val ∧ (i 0).val < win1_10.index _ (0 : Fin 2) * 5000 + 5000
    rw [e2]; show (i 0).val / 5000 * 5000 ≤ (i 0).val ∧ (i 0).val < (i 0).val / 5000 * 5000 + 5000; omega
  | ⟨1, _⟩ =>
    show win1_10.index _ (1 : Fin 2) * 1 ≤ (i 1).val ∧ (i 1).val < win1_10.index _ (1 : Fin 2) * 1 + 1
    rw [e3]; omega

/-- The result array after the region is the head of the whole aggregate. -/
theorem final1 (c : Dev nD) : (dat1 V c).arrAt 10 cfg1.N = outArr V c :=
  (dat1 V c).arrAt_eq_of_cover 10 (outArr V c) (fun t _ => flushed_eq V c t) cover

end Cert.KernelIdeal.Region1

end
-- ==== Proof.RefValue.lean ====
/-
  The reference's result as the head of the aggregated features.

  The reference multiplies `h` by `W` (`xProd`), gathers and scatter-adds the rows of the product over the graph's
  edges with the symmetric normalisation (`aggOf`, kept as one function of the product: nothing below opens it), and
  then applies the head: the convolution's bias and a clamp at zero, three clamped dense layers, a dense layer into
  one column and the logistic written out as `1 / (1 + exp (-z))`. Each stretch of the program's operations is one
  layer of `Cert.MlpHead.head`, as whole arrays.
-/
import proofs.«153734_j62629213110804_1_alg».proof.Proof.Gen.ReferenceIdeal.Read
import proofs.«153734_j62629213110804_1_alg».proof.Proof.LibPlainDot
import proofs.«153734_j62629213110804_1_alg».proof.Proof.LibMlpHead

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.DenseLayer Cert.BiasLayer Cert.MlpHead

/-- Each of the reference's contractions sums the second axis of its left operand against the first of its right. -/
theorem dotA_plain : PlainDot dot_S100000x30_S30x30_S100000x30_1_0_0_1_n_n := plainDot_of_axes _ rfl rfl rfl rfl rfl rfl
theorem dotB_plain : PlainDot dot_S100000x30_S30x10_S100000x10_1_0_0_1_n_n := plainDot_of_axes _ rfl rfl rfl rfl rfl rfl
theorem dotC_plain : PlainDot dot_S100000x10_S10x10_S100000x10_1_0_0_1_n_n := plainDot_of_axes _ rfl rfl rfl rfl rfl rfl
theorem dotD_plain : PlainDot dot_S100000x10_S10x1_S100000x1_1_0_0_1_n_n := plainDot_of_axes _ rfl rfl rfl rfl rfl rfl

/-- `h · W`, entry by entry. -/
def xProd (h : FVec Ideal S100000x30 .f32) (w : FVec Ideal S30x30 .f32) : FVec Ideal S100000x30 .f32 :=
  fun i => prodRow (a := 100000) (K := 30) (N := 30) h w (i 0) (i 1)

/-- The aggregation over the graph's edges and self-loops, as a function of the transformed features `x`, the edge
    list and the edge weights: the rows of `x` gathered at the source nodes, scaled by the symmetric normalisation
    of the weights, and scatter-added at the target nodes. -/
def aggOf (x : FVec Ideal S100000x30 .f32) (ei : (⟨S2x3200000, .i32⟩ : BufTy).Contents (Elt Ideal))
    (ew : (⟨S3200000, .f32⟩ : BufTy).Contents (Elt Ideal)) : FVec Ideal S100000x30 .f32 :=
  Host.scatterAdd (F := Ideal) scatter_S100000x30_S3300000x1_S3300000x30_1_0_0_1 (val_main_v43 (F := Ideal))
    (val_main_v44 (F := Ideal) ei)
    (mulf (Host.gather gather_S100000x30_S3300000x1_S3300000x30_1_0_n_n_0_1_130 x (val_main_v38 (F := Ideal) ei))
      (val_main_v41 (F := Ideal) ei ew))

variable (x0 : (⟨S100000x30, .f32⟩ : BufTy).Contents (Elt Ideal)) (x1 : (⟨S2x3200000, .i32⟩ : BufTy).Contents (Elt Ideal))
  (x2 : (⟨S3200000, .f32⟩ : BufTy).Contents (Elt Ideal)) (x3 : (⟨S30x30, .f32⟩ : BufTy).Contents (Elt Ideal))
  (x4 : (⟨S30, .f32⟩ : BufTy).Contents (Elt Ideal)) (x5 : (⟨S30x10, .f32⟩ : BufTy).Contents (Elt Ideal))
  (x6 : (⟨S10, .f32⟩ : BufTy).Contents (Elt Ideal)) (x7 : (⟨S10x10, .f32⟩ : BufTy).Contents (Elt Ideal))
  (x8 : (⟨S10, .f32⟩ : BufTy).Contents (Elt Ideal)) (x9 : (⟨S10x10, .f32⟩ : BufTy).Contents (Elt Ideal))
  (x10 : (⟨S10, .f32⟩ : BufTy).Contents (Elt Ideal)) (x11 : (⟨S10x1, .f32⟩ : BufTy).Contents (Elt Ideal))
  (x12 : (⟨S1, .f32⟩ : BufTy).Contents (Elt Ideal))

/-- The reference's first product is `h · W`. -/
theorem product_eq : val_main_v0 (F := Ideal) x0 x3 = xProd x0 x3 :=
  funext fun i => by
    unfold val_main_v0
    exact dotGeneral_apply dotA_plain none .single x0 x3 i

/-- Its scatter-add is the aggregation of that product. -/
theorem aggregate_eq : val_main_v45 (F := Ideal) x0 x1 x2 x3 = aggOf (xProd x0 x3) x1 x2 := by
  have h : val_main_v45 (F := Ideal) x0 x1 x2 x3 = aggOf (val_main_v0 (F := Ideal) x0 x3) x1 x2 := rfl
  rw [h, product_eq]

/-- The bias and the clamp. -/
theorem hidden0_eq : val_main_v49 (F := Ideal) x0 x1 x2 x3 x4 = biasRelu (aggOf (xProd x0 x3) x1 x2) x4 := by
  unfold val_main_v49 val_main_v48 val_main_v47 val_main_v46 val_main_call1_v0 val_main_call1_cst
  rw [aggregate_eq]
  exact host_biasRelu _ x4 _ _ _

/-- The first clamped dense layer. -/
theorem hidden1_eq : val_main_v54 (F := Ideal) x0 x1 x2 x3 x4 x5 x6
    = reluAffine (biasRelu (aggOf (xProd x0 x3) x1 x2) x4) x5 x6 := by
  unfold val_main_v54 val_main_v53 val_main_v52 val_main_v51 val_main_v50 val_main_call2_v0 val_main_call2_cst
  rw [hidden0_eq]
  exact host_reluAffine_eq dotB_plain none _ x5 x6 _ _ _

/-- The second. -/
theorem hidden2_eq : val_main_v59 (F := Ideal) x0 x1 x2 x3 x4 x5 x6 x7 x8
    = reluAffine (reluAffine (biasRelu (aggOf (xProd x0 x3) x1 x2) x4) x5 x6) x7 x8 := by
  unfold val_main_v59 val_main_v58 val_main_v57 val_main_v56 val_main_v55 val_main_call3_v0 val_main_call3_cst
  rw [hidden1_eq]
  exact host_reluAffine_eq dotC_plain none _ x7 x8 _ _ _

/-- The third. -/
theorem hidden3_eq : val_main_v64 (F := Ideal) x0 x1 x2 x3 x4 x5 x6 x7 x8 x9 x10
    = reluAffine (reluAffine (reluAffine (biasRelu (aggOf (xProd x0 x3) x1 x2) x4) x5 x6) x7 x8) x9 x10 := by
  unfold val_main_v64 val_main_v63 val_main_v62 val_main_v61 val_main_v60 val_main_call4_v0 val_main_call4_cst
  rw [hidden2_eq]
  exact host_reluAffine_eq dotC_plain none _ x9 x10 _ _ _

/-- The last dense layer, into one column. -/
theorem logits_eq : val_main_v68 (F := Ideal) x0 x1 x2 x3 x4 x5 x6 x7 x8 x9 x10 x11 x12
    = affine (reluAffine (reluAffine (reluAffine (biasRelu (aggOf (xProd x0 x3) x1 x2) x4) x5 x6) x7 x8) x9 x10) x11 x12 := by
  unfold val_main_v68 val_main_v67 val_main_v66 val_main_v65
  rw [hidden3_eq]
  exact host_affine_eq dotD_plain none _ x11 x12 _ _

/-- The logistic written out: the reference's `[100000, 1]` result is the head of the aggregate. -/
theorem head_eq : val_main_v74 (F := Ideal) x0 x1 x2 x3 x4 x5 x6 x7 x8 x9 x10 x11 x12
    = head (aggOf (xProd x0 x3) x1 x2) x4 x5 x6 x7 x8 x9 x10 x11 x12 := by
  unfold val_main_v74 val_main_v73 val_main_v72 val_main_v71 val_main_v70 val_main_v69 val_main_cst_9 val_main_cst_10
  rw [logits_eq]
  exact host_logistic _ _ _

/-- The result: the head's one column reshaped to a vector of 100000 entries. -/
def resultOf : FVec Ideal S100000 .f32 :=
  shapeCast S100000 (head (aggOf (xProd x0 x3) x1 x2) x4 x5 x6 x7 x8 x9 x10 x11 x12) shapeCasts_S100000x1_S100000

/-- The reference's run ends with its result at `resultOf` of the argument arrays. -/
theorem result_eq (m : (ℓ : Loc nD τ sig) → Buf (Elt Ideal) ℓ) (c : Dev nD) :
    Cert.ReferenceIdeal.Value.res_main_v75 m c
      = resultOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  rw [val_main_v75_eq]
  unfold val_main_v75 resultOf
  rw [head_eq]

end Cert.ReferenceIdeal.RefValue

end
-- ==== Proof.KernelHost.lean ====
/-
  The kernel's program between and after its two regions: what the result array holds, as a function of the launch
  memory.

  Region 0 leaves `h · W` in its result array. The host operations between the regions aggregate that product over
  the graph's edges — the very operations the reference applies to its own product, so the aggregate is the
  reference's aggregation function of `h · W` — and reshape each bias `[N]` to `[1, N]`; no operation writes a weight
  matrix. Region 1 leaves the head of the aggregate in its `[100000, 1]` result, and the last host operation reshapes
  that to `[100000]`.
-/
import proofs.«153734_j62629213110804_1_alg».proof.Proof.Gen.KernelIdeal.Frame
import proofs.«153734_j62629213110804_1_alg».proof.Proof.Region0Value
import proofs.«153734_j62629213110804_1_alg».proof.Proof.Region1Value
import proofs.«153734_j62629213110804_1_alg».proof.Proof.RefValue
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.HostValue

open Cert.KernelIdeal Cert.KernelIdeal.Gen Cert.DenseLayer Cert.BiasLayer Cert.MlpHead
open Cert.ReferenceIdeal.RefValue (xProd aggOf)

variable (m : (ℓ : Loc nD τ sig) → Buf (Elt Ideal) ℓ) (ρ : Dev nD → PrngReg)

/-! ## Region 0's exit -/

/-- The transformed features after region 0 are `h · W` of the launch memory. -/
theorem exit0_product (c : Dev nD) :
    (V1 m ρ c main_v0 : Mat 100000 30) = xProd (m ((c : Thread nD τ).loc main_arg0)) (m ((c : Thread nD τ).loc main_arg3)) :=
  (W1_arr m ρ c 2).trans (Region0.final0 (V0 m ρ) c)

/-! ## Region 1's entry: the host operations between the regions -/

/-- No operation between the regions writes a weight matrix, and region 0 does not either. -/
theorem entry_w1 (c : Dev nD) : V4 m ρ c main_arg5 = m ((c : Thread nD τ).loc main_arg5) := by
  show StableHlo.after hostOps1_2 (StableHlo.after hostOps1_1 (StableHlo.after hostOps1 (W1 m ρ c))) (Proc.devRef .tc main_arg5) = _
  after_results_simp
  exact W1_of_ne m ρ c main_arg5 (by decide)
theorem entry_w2 (c : Dev nD) : V4 m ρ c main_arg7 = m ((c : Thread nD τ).loc main_arg7) := by
  show StableHlo.after hostOps1_2 (StableHlo.after hostOps1_1 (StableHlo.after hostOps1 (W1 m ρ c))) (Proc.devRef .tc main_arg7) = _
  after_results_simp
  exact W1_of_ne m ρ c main_arg7 (by decide)
theorem entry_w3 (c : Dev nD) : V4 m ρ c main_arg9 = m ((c : Thread nD τ).loc main_arg9) := by
  show StableHlo.after hostOps1_2 (StableHlo.after hostOps1_1 (StableHlo.after hostOps1 (W1 m ρ c))) (Proc.devRef .tc main_arg9) = _
  after_results_simp
  exact W1_of_ne m ρ c main_arg9 (by decide)
theorem entry_w4 (c : Dev nD) : V4 m ρ c main_arg11 = m ((c : Thread nD τ).loc main_arg11) := by
  show StableHlo.after hostOps1_2 (StableHlo.after hostOps1_1 (StableHlo.after hostOps1 (W1 m ρ c))) (Proc.devRef .tc main_arg11) = _
  after_results_simp
  exact W1_of_ne m ρ c main_arg11 (by decide)

/-- Each bias enters region 1 as its `[N]` array reshaped to `[1, N]`. -/
theorem entry_cb (c : Dev nD) :
    V4 m ρ c main_v46 = shapeCast S1x30 (m ((c : Thread nD τ).loc main_arg4)) shapeCasts_S30_S1x30 := by
  show StableHlo.after hostOps1_2 (StableHlo.after hostOps1_1 (StableHlo.after hostOps1 (W1 m ρ c))) (Proc.devRef .tc main_v46) = _
  after_results_simp
  rw [W1_of_ne m ρ c main_arg4 (by decide)]
  rfl
theorem entry_b1 (c : Dev nD) :
    V4 m ρ c main_v47 = shapeCast S1x10 (m ((c : Thread nD τ).loc main_arg6)) shapeCasts_S10_S1x10 := by
  show StableHlo.after hostOps1_2 (StableHlo.after hostOps1_1 (StableHlo.after hostOps1 (W1 m ρ c))) (Proc.devRef .tc main_v47) = _
  after_results_simp
  rw [W1_of_ne m ρ c main_arg6 (by decide)]
  rfl
theorem entry_b2 (c : Dev nD) :
    V4 m ρ c main_v48 = shapeCast S1x10 (m ((c : Thread nD τ).loc main_arg8)) shapeCasts_S10_S1x10 := by
  show StableHlo.after hostOps1_2 (StableHlo.after hostOps1_1 (StableHlo.after hostOps1 (W1 m ρ c))) (Proc.devRef .tc main_v48) = _
  after_results_simp
  rw [W1_of_ne m ρ c main_arg8 (by decide)]
  rfl
theorem entry_b3 (c : Dev nD) :
    V4 m ρ c main_v49 = shapeCast S1x10 (m ((c : Thread nD τ).loc main_arg10)) shapeCasts_S10_S1x10 := by
  show StableHlo.after hostOps1_2 (StableHlo.after hostOps1_1 (StableHlo.after hostOps1 (W1 m ρ c))) (Proc.devRef .tc main_v49) = _
  after_results_simp
  rw [W1_of_ne m ρ c main_arg10 (by decide)]
  rfl
theorem entry_b4 (c : Dev nD) :
    V4 m ρ c main_v50 = shapeCast S1x1 (m ((c : Thread nD τ).loc main_arg12)) shapeCasts_S1_S1x1 := by
  show StableHlo.after hostOps1_2 (StableHlo.after hostOps1_1 (StableHlo.after hostOps1 (W1 m ρ c))) (Proc.devRef .tc main_v50) = _
  after_results_simp
  rw [W1_of_ne m ρ c main_arg12 (by decide)]
  rfl

/-! ### The aggregation

The host operations between the regions are the reference's own, one for one. The first stretch builds, from the edge
list and the edge weights alone, the source and target node of every edge and self-loop, every weight, and the
degrees' test and inverse square root; the later stretches gather, scale and scatter-add the rows of region 0's
product over them. -/

open Cert.ReferenceIdeal.Read in
/-- The source node of every edge and self-loop. -/
theorem sources_eq (c : Dev nD) :
    W2 m ρ c (Proc.devRef .tc main_v4) = val_main_v4 (F := Ideal) (m ((c : Thread nD τ).loc main_arg1)) := by
  show StableHlo.after hostOps1 (W1 m ρ c) (Proc.devRef .tc main_v4) = _
  after_results
  rw [W1_of_ne m ρ c main_arg1 (by decide)]
  rfl

open Cert.ReferenceIdeal.Read in
/-- The target node of every edge and self-loop. -/
theorem targets_eq (c : Dev nD) :
    W2 m ρ c (Proc.devRef .tc main_v7) = val_main_v7 (F := Ideal) (m ((c : Thread nD τ).loc main_arg1)) := by
  show StableHlo.after hostOps1 (W1 m ρ c) (Proc.devRef .tc main_v7) = _
  after_results
  rw [W1_of_ne m ρ c main_arg1 (by decide)]
  rfl

open Cert.ReferenceIdeal.Read in
/-- The weight of every edge, and one for every self-loop. -/
theorem weights_eq (c : Dev nD) :
    W2 m ρ c (Proc.devRef .tc main_v9) = val_main_v9 (F := Ideal) (m ((c : Thread nD τ).loc main_arg2)) := by
  show StableHlo.after hostOps1 (W1 m ρ c) (Proc.devRef .tc main_v9) = _
  after_results
  rw [W1_of_ne m ρ c main_arg2 (by decide)]
  rfl

open Cert.ReferenceIdeal.Read in
/-- Which degrees are positive. -/
theorem degree_pos_eq (c : Dev nD) :
    W2 m ρ c (Proc.devRef .tc main_v14)
      = val_main_v14 (F := Ideal) (m ((c : Thread nD τ).loc main_arg1)) (m ((c : Thread nD τ).loc main_arg2)) := by
  show StableHlo.after hostOps1 (W1 m ρ c) (Proc.devRef .tc main_v14) = _
  after_results
  rw [W1_of_ne m ρ c main_arg1 (by decide), W1_of_ne m ρ c main_arg2 (by decide)]
  rfl

open Cert.ReferenceIdeal.Read in
/-- The degrees' inverse square roots. -/
theorem degree_rsqrt_eq (c : Dev nD) :
    W2 m ρ c (Proc.devRef .tc main_v15)
      = val_main_v15 (F := Ideal) (m ((c : Thread nD τ).loc main_arg1)) (m ((c : Thread nD τ).loc main_arg2)) := by
  show StableHlo.after hostOps1 (W1 m ρ c) (Proc.devRef .tc main_v15) = _
  after_results
  rw [W1_of_ne m ρ c main_arg1 (by decide), W1_of_ne m ρ c main_arg2 (by decide)]
  rfl

open Cert.ReferenceIdeal.Read in
/-- The zero that replaces the inverse square root of a degree that is not positive. -/
theorem zero_eq (c : Dev nD) : W2 m ρ c (Proc.devRef .tc main_cst_2) = val_main_cst_2 (F := Ideal) := by
  show StableHlo.after hostOps1 (W1 m ρ c) (Proc.devRef .tc main_cst_2) = _
  after_results
  rfl

/-- The first stretch does not write region 0's product. -/
theorem product_kept (c : Dev nD) : W2 m ρ c (Proc.devRef .tc main_v0) = W1 m ρ c (Proc.devRef .tc main_v0) := by
  show StableHlo.after hostOps1 (W1 m ρ c) (Proc.devRef .tc main_v0) = _
  after_results_simp

/-- The select of the call that zeroes the inverse square root where the degree is not positive, with the call's
    values moved to and from their buffers' own types: those moves are the identity. -/
theorem where_value (a : (⟨S100000, .i1⟩ : BufTy).Contents (Elt Ideal)) (b : (⟨S100000, .f32⟩ : BufTy).Contents (Elt Ideal))
    (z : (⟨S_, .f32⟩ : BufTy).Contents (Elt Ideal)) :
    ((.of main_v16 : StableHlo.TRef sig ⟨S100000, .f32⟩).toBuf
      (select ((.of main_v14 : StableHlo.TRef sig ⟨S100000, .i1⟩).ofBuf a)
        ((.of main_v15 : StableHlo.TRef sig ⟨S100000, .f32⟩).ofBuf b)
        ((.of main_call0_v1 : StableHlo.TRef sig ⟨S100000, .f32⟩).ofBuf
          ((.of main_call0_v1 : StableHlo.TRef sig ⟨S100000, .f32⟩).toBuf
            (broadcastInDim S100000 ![] bcast_S_S100000
              ((.of main_call0_v0 : StableHlo.TRef sig ⟨S_, .f32⟩).ofBuf
                ((.of main_call0_v0 : StableHlo.TRef sig ⟨S_, .f32⟩).toBuf
                  (id ((.of main_cst_2 : StableHlo.TRef sig ⟨S_, .f32⟩).ofBuf z))))))))
      : (⟨S100000, .f32⟩ : BufTy).Contents (Elt Ideal))
      = select a b (broadcastInDim S100000 ![] bcast_S_S100000 (id z)) := rfl

/-- The call, from any contents: its result is the select of the test, the inverse square root and a splat of the
    zero it is handed. -/
theorem where_from (W : Valuation τ sig (Elt Ideal)) (a : (⟨S100000, .i1⟩ : BufTy).Contents (Elt Ideal))
    (b : (⟨S100000, .f32⟩ : BufTy).Contents (Elt Ideal)) (z : (⟨S_, .f32⟩ : BufTy).Contents (Elt Ideal))
    (h14 : W (Proc.devRef .tc main_v14) = a) (h15 : W (Proc.devRef .tc main_v15) = b)
    (hz : W (Proc.devRef .tc main_cst_2) = z) :
    StableHlo.after hostOps1_1 W (Proc.devRef .tc main_v16)
      = select a b (broadcastInDim S100000 ![] bcast_S_S100000 (id z)) := by
  after_results_simp
  rw [h14, h15, hz]
  exact where_value a b z

open Cert.ReferenceIdeal.Read in
/-- The inverse square roots of the degrees, zero where the degree is not positive. -/
theorem inverse_root_eq (c : Dev nD) :
    W3 m ρ c (Proc.devRef .tc main_v16)
      = val_main_v16 (F := Ideal) (m ((c : Thread nD τ).loc main_arg1)) (m ((c : Thread nD τ).loc main_arg2)) :=
  (where_from (W2 m ρ c) _ _ _ (degree_pos_eq m ρ c) (degree_rsqrt_eq m ρ c) (zero_eq m ρ c)).trans rfl

/-- The call does not write the sources, the targets, the weights or region 0's product. -/
theorem sources_kept (c : Dev nD) : W3 m ρ c (Proc.devRef .tc main_v4) = W2 m ρ c (Proc.devRef .tc main_v4) := by
  show StableHlo.after hostOps1_1 (W2 m ρ c) (Proc.devRef .tc main_v4) = _
  after_results_simp
theorem targets_kept (c : Dev nD) : W3 m ρ c (Proc.devRef .tc main_v7) = W2 m ρ c (Proc.devRef .tc main_v7) := by
  show StableHlo.after hostOps1_1 (W2 m ρ c) (Proc.devRef .tc main_v7) = _
  after_results_simp
theorem weights_kept (c : Dev nD) : W3 m ρ c (Proc.devRef .tc main_v9) = W2 m ρ c (Proc.devRef .tc main_v9) := by
  show StableHlo.after hostOps1_1 (W2 m ρ c) (Proc.devRef .tc main_v9) = _
  after_results_simp
theorem product_kept' (c : Dev nD) : W3 m ρ c (Proc.devRef .tc main_v0) = W2 m ρ c (Proc.devRef .tc main_v0) := by
  show StableHlo.after hostOps1_1 (W2 m ρ c) (Proc.devRef .tc main_v0) = _
  after_results_simp

open Cert.ReferenceIdeal.Read in
/-- The last stretch, from any contents whose four buffers above are the reference's: the aggregate is the
    reference's aggregation function of the product held there. -/
theorem aggregate_from (W : Valuation τ sig (Elt Ideal)) (ei : (⟨S2x3200000, .i32⟩ : BufTy).Contents (Elt Ideal))
    (ew : (⟨S3200000, .f32⟩ : BufTy).Contents (Elt Ideal))
    (h4 : W (Proc.devRef .tc main_v4) = val_main_v4 (F := Ideal) ei)
    (h7 : W (Proc.devRef .tc main_v7) = val_main_v7 (F := Ideal) ei)
    (h9 : W (Proc.devRef .tc main_v9) = val_main_v9 (F := Ideal) ew)
    (h16 : W (Proc.devRef .tc main_v16) = val_main_v16 (F := Ideal) ei ew) :
    StableHlo.after hostOps1_2 W (Proc.devRef .tc main_v45) = aggOf (W (Proc.devRef .tc main_v0)) ei ew := by
  after_results_simp
  rw [h4, h7, h9, h16]
  rfl

/-- The aggregate entering region 1 is the reference's aggregation function of `h · W`, the edge list and the edge
    weights. -/
theorem entry_aggregate (c : Dev nD) :
    V4 m ρ c main_v45
      = aggOf (xProd (m ((c : Thread nD τ).loc main_arg0)) (m ((c : Thread nD τ).loc main_arg3)))
          (m ((c : Thread nD τ).loc main_arg1)) (m ((c : Thread nD τ).loc main_arg2)) := by
  refine (aggregate_from (W3 m ρ c) _ _ ((sources_kept m ρ c).trans (sources_eq m ρ c))
    ((targets_kept m ρ c).trans (targets_eq m ρ c)) ((weights_kept m ρ c).trans (weights_eq m ρ c))
    (inverse_root_eq m ρ c)).trans ?_
  rw [product_kept', product_kept]
  exact congrArg (fun x => aggOf x _ _) (exit0_product m ρ c)

/-! ## Region 1's exit and the last reshape -/

open Cert.ReferenceIdeal.RefValue (resultOf) in
/-- What the kernel's program leaves in its result array: the head of the aggregate, reshaped to a vector. -/
theorem result_eq (c : Dev nD) :
    W6 m ρ c (Proc.devRef .tc main_v52)
      = resultOf (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) := by
  have hlast : W6 m ρ c (Proc.devRef .tc main_v52)
      = shapeCast S100000 (W5 m ρ c (Proc.devRef .tc main_v51)) shapeCasts_S100000x1_S100000 := by
    show StableHlo.after hostOps2 (W5 m ρ c) (Proc.devRef .tc main_v52) = _
    after_results
    rfl
  have hout : W5 m ρ c (Proc.devRef .tc main_v51) = Region1.outArr (V4 m ρ) c :=
    (W5_arr m ρ c 10).trans (Region1.final1 (V4 m ρ) c)
  have hhead : Region1.outArr (V4 m ρ) c
      = head (aggOf (xProd (m ((c : Thread nD τ).loc main_arg0)) (m ((c : Thread nD τ).loc main_arg3)))
            (m ((c : Thread nD τ).loc main_arg1)) (m ((c : Thread nD τ).loc main_arg2)))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) := by
    have hcb : rowOf (V4 m ρ c main_v46) = m ((c : Thread nD τ).loc main_arg4) := by
      rw [entry_cb]; exact rowOf_shapeCast _ _
    have hb1 : rowOf (V4 m ρ c main_v47) = m ((c : Thread nD τ).loc main_arg6) := by
      rw [entry_b1]; exact rowOf_shapeCast _ _
    have hb2 : rowOf (V4 m ρ c main_v48) = m ((c : Thread nD τ).loc main_arg8) := by
      rw [entry_b2]; exact rowOf_shapeCast _ _
    have hb3 : rowOf (V4 m ρ c main_v49) = m ((c : Thread nD τ).loc main_arg10) := by
      rw [entry_b3]; exact rowOf_shapeCast _ _
    have hb4 : rowOf (V4 m ρ c main_v50) = m ((c : Thread nD τ).loc main_arg12) := by
      rw [entry_b4]; exact rowOf_shapeCast _ _
    unfold Region1.outArr
    show head (V4 m ρ c main_v45) (rowOf (V4 m ρ c main_v46)) (V4 m ρ c main_arg5) (rowOf (V4 m ρ c main_v47))
        (V4 m ρ c main_arg7) (rowOf (V4 m ρ c main_v48)) (V4 m ρ c main_arg9) (rowOf (V4 m ρ c main_v49))
        (V4 m ρ c main_arg11) (rowOf (V4 m ρ c main_v50)) = _
    rw [entry_aggregate, hcb, entry_w1, hb1, entry_w2, hb2, entry_w3, hb3, entry_w4, hb4]
  rw [hlast, hout, hhead]
  rfl

end Cert.KernelIdeal.HostValue

end
-- ==== Proof.Claims.lean ====
/-
  The claims: a graph convolution followed by a four-layer head, as two blocked kernels around the host's edge
  aggregation, against the same network written with whole-matrix products.

  Both programs compute, for every node, the logistic of the head applied to that node's aggregated features, where
  the aggregate gathers the rows of `h · W` at every edge's source, scales them by the symmetrically normalised edge
  weight and adds them up at the edge's target. The kernel's program takes `h · W` and the head a block of 5000 rows at
  a time and applies the reference's own aggregation operations in between; a product into a zero accumulator and a
  whole-matrix contraction are the same sums at the ideal values, a change of float format is the identity there, and
  the kernel's logistic is the reference's `1 / (1 + exp (-z))`. No law of the extended reals beyond that is used, so
  the inputs' finiteness is never opened.
-/
import proofs.«153734_j62629213110804_1_alg».proof.Defs
import proofs.«153734_j62629213110804_1_alg».proof.Proof.Gen.Kernel.Frame
import proofs.«153734_j62629213110804_1_alg».proof.Proof.Gen.KernelIdeal.Frame
import proofs.«153734_j62629213110804_1_alg».proof.Proof.Gen.ReferenceIdeal.Run
import proofs.«153734_j62629213110804_1_alg».proof.Proof.Gen.Pre_finite_inputs
import proofs.«153734_j62629213110804_1_alg».proof.Proof.KernelRun
import proofs.«153734_j62629213110804_1_alg».proof.Proof.KernelHost
import proofs.«153734_j62629213110804_1_alg».proof.Proof.RefValue

noncomputable section

open Idealize.ShloMosaic Idealize.ShloMosaic.TcCoe Idealize.SL.Sem

namespace Cert.Proof.Claims

/-- The kernel's program as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the result array at the head of the aggregate
    of `h · W`, reshaped to a vector: the kernel's by its two regions' values and the host operations between them, the
    reference's by its run read one layer at a time. -/
theorem algebraic : Cert.algebraic_KernelIdeal_ReferenceIdeal := by
  intro m ρ m' ρ' _ hagree
  refine ⟨fun c => Cert.ReferenceIdeal.RefValue.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.HostValue.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq]
    obtain ⟨e0, e1, e2, e3, e4, e5, e6, e7, e8, e9, e10, e11, e12⟩ := hagree c
    rw [e0, e1, e2, e3, e4, e5, e6, e7, e8, e9, e10, e11, e12]

end Cert.Proof.Claims

end
-- ==== Proof.lean ====
/-
  The certificate of a graph-convolution network: two blocked kernels (the linear transform `h · W`; the fused
  bias, clamp, four dense layers and logistic) around the host's aggregation over the graph's edges, against the same
  network with whole-matrix products. The witnesses of the programs' stated facts are the generated ones; the frames,
  the one trivial ledger conjunct and the equality of the two results over the extended reals are `Claims`.
-/
import proofs.«153734_j62629213110804_1_alg».proof.Defs
import proofs.«153734_j62629213110804_1_alg».proof.Proof.Gen.Kernel
import proofs.«153734_j62629213110804_1_alg».proof.Proof.Gen.KernelIdeal
import proofs.«153734_j62629213110804_1_alg».proof.Proof.Gen.ReferenceIdeal
import proofs.«153734_j62629213110804_1_alg».proof.Proof.Gen.ReferenceIdeal.Run
import proofs.«153734_j62629213110804_1_alg».proof.Proof.Gen.ReferenceIdeal.Read
import proofs.«153734_j62629213110804_1_alg».proof.Proof.Gen.Pre_finite_inputs
import proofs.«153734_j62629213110804_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
